-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x1024 : Shape := ⟨3, ![128, 128, 1024]⟩
abbrev S128x1024x1024 : Shape := ⟨3, ![128, 1024, 1024]⟩
abbrev S_ : Shape := ⟨0, ![]⟩

class Facts : Prop where
  bcast_S_S128x128x1024 : S_.BroadcastsInDim S128x128x1024 (![] : Fin 0 → Fin S128x128x1024.rank)
  reducesTo_S128x128x1024_S_d0_1_2 : S128x128x1024.ReducesTo [0, 1, 2] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x128x1024 .f32) (main_arg1 : FVec F S128x1024x1024 .f32) : IVec S_ 1 :=
  let main_v0 : FVec F S128x128x1024 .f32 := Host.absf main_arg0
  let main_cst : FVec F S_ .f32 := constant S_ .f32 0x7F800000#32
  let main_v1 : FVec F S128x128x1024 .f32 := broadcastInDim S128x128x1024 ![] bcast_S_S128x128x1024 main_cst
  let main_v2 : IVec S128x128x1024 1 := cmpf .olt main_v0 main_v1
  let main_c : IVec S_ 1 := constantI S_ 1 1#1
  let main_v3 : IVec S_ 1 := (fun x v => Host.reduce IntOp.andi x v reducesTo_S128x128x1024_S_d0_1_2 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x128x1024 : Shape := ⟨3, ![128, 128, 1024]⟩
abbrev S128x1024x1024 : Shape := ⟨3, ![128, 1024, 1024]⟩
abbrev S1x1024x1024 : Shape := ⟨3, ![1, 1024, 1024]⟩
abbrev S1x128x1024 : Shape := ⟨3, ![1, 128, 1024]⟩
abbrev S1024x1024 : Shape := ⟨2, ![1024, 1024]⟩
abbrev S128x1024 : Shape := ⟨2, ![128, 1024]⟩
abbrev S1024x128 : Shape := ⟨2, ![1024, 128]⟩
abbrev S1024 : Shape := ⟨1, ![1024]⟩
abbrev S1024x1 : Shape := ⟨2, ![1024, 1]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x128x1024, .f32⟩
  | .hbm, ⟨3, _⟩ => ⟨S128x128x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S128x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  transposes_S128x1024_p1_0_S1024x128 : S128x1024.Transposes [1, 0] S1024x128
  reduces_S1024x128_S1024 : S1024x128.Reduces [1] S1024
  shapeCasts_S1024_S1024x1 : S1024.ShapeCasts S1024x1
  broadcasts_S1024x1_S1024x128 : S1024x1.Broadcasts S1024x128
  transposes_S1024x128_p1_0_S128x1024 : S1024x128.Transposes [1, 0] S128x1024
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  dot_S1024x1024_S1024x128_S1024x128_1_0_0_1_n_n_wf : DotDims.WF S1024x1024 S1024x128 S1024x128 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S128x1024x1024.size a
  hwx0_0 : ∀ i : grid0.Coords, EltTy.bits .f32 = 32 ∨ (Rect.block (s := S128x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S128x128x1024.size a
  hwx0_1 : ∀ i : grid0.Coords, EltTy.bits .f32 = 32 ∨ (Rect.block (s := S128x128x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S128x128x1024.size a
  hwx0_2 : ∀ i : grid0.Coords, EltTy.bits .f32 = 32 ∨ (Rect.block (s := S128x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S128x128x1024.size a
  hwx0_3 : ∀ i : grid0.Coords, EltTy.bits .f32 = 32 ∨ (Rect.block (s := S128x128x1024) S1x128x1024.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x1024 : Shape := ⟨3, ![128, 128, 1024]⟩
abbrev S128x1024x1024 : Shape := ⟨3, ![128, 1024, 1024]⟩
abbrev S128x1024x128 : Shape := ⟨3, ![128, 1024, 128]⟩
abbrev S_ : Shape := ⟨0, ![]⟩
abbrev S128x1024 : Shape := ⟨2, ![128, 1024]⟩
abbrev S128x1024x1 : Shape := ⟨3, ![128, 1024, 1]⟩
abbrev S128x128 : Shape := ⟨2, ![128, 128]⟩
abbrev S128x128x1 : Shape := ⟨3, ![128, 128, 1]⟩

abbrev nBuf : Space → Nat
  | .hbm => 40
  | .vmem => 0
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x1024x128, .f32⟩
  | .hbm, ⟨3, _⟩ => ⟨S_, .f32⟩
  | .hbm, ⟨4, _⟩ => ⟨S_, .f32⟩
  | .hbm, ⟨5, _⟩ => ⟨S128x1024x128, .f32⟩
  | .hbm, ⟨6, _⟩ => ⟨S128x1024x128, .i1⟩
  | .hbm, ⟨7, _⟩ => ⟨S_, .f32⟩
  | .hbm, ⟨8, _⟩ => ⟨S128x1024x128, .f32⟩
  | .hbm, ⟨9, _⟩ => ⟨S128x1024x128, .f32⟩
  | .hbm, ⟨10, _⟩ => ⟨S128x1024x128, .f32⟩
  | .hbm, ⟨11, _⟩ => ⟨S128x1024x128, .f32⟩
  | .hbm, ⟨12, _⟩ => ⟨S_, .f32⟩
  | .hbm, ⟨13, _⟩ => ⟨S128x1024, .f32⟩
  | .hbm, ⟨14, _⟩ => ⟨S128x1024x1, .f32⟩
  | .hbm, ⟨15, _⟩ => ⟨S128x1024x1, .f32⟩
  | .hbm, ⟨16, _⟩ => ⟨S_, .f32⟩
  | .hbm, ⟨17, _⟩ => ⟨S128x1024x1, .f32⟩
  | .hbm, ⟨18, _⟩ => ⟨S128x1024x1, .f32⟩
  | .hbm, ⟨19, _⟩ => ⟨S128x1024x128, .f32⟩
  | .hbm, ⟨20, _⟩ => ⟨S128x1024x128, .f32⟩
  | .hbm, ⟨21, _⟩ => ⟨S128x128x1024, .f32⟩
  | .hbm, ⟨22, _⟩ => ⟨S_, .f32⟩
  | .hbm, ⟨23, _⟩ => ⟨S128x128x1024, .f32⟩
  | .hbm, ⟨24, _⟩ => ⟨S128x128x1024, .f32⟩
  | .hbm, ⟨25, _⟩ => ⟨S_, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128x1, .f32⟩
  | .hbm, ⟨31, _⟩ => ⟨S128x128x1024, .f32⟩
  | .hbm, ⟨32, _⟩ => ⟨S128x128x1024, .f32⟩
  | .hbm, ⟨33, _⟩ => ⟨S128x128x1024, .f32⟩
  | .hbm, ⟨34, _⟩ => ⟨S_, .f32⟩
  | .hbm, ⟨35, _⟩ => ⟨S128x128, .f32⟩
  | .hbm, ⟨36, _⟩ => ⟨S128x128x1, .f32⟩
  | .hbm, ⟨37, _⟩ => ⟨S128x128x1024, .f32⟩
  | .hbm, ⟨38, _⟩ => ⟨S128x128x1024, .f32⟩
  | .hbm, ⟨39, _⟩ => ⟨S128x128x1024, .f32⟩
  | _, _ => ⟨S128x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S128x1024x128 : S_.BroadcastsInDim S128x1024x128 (![] : Fin 0 → Fin S128x1024x128.rank)
  reducesTo_S128x1024x128_S128x1024_d2 : S128x1024x128.ReducesTo [2] S128x1024
  h_S_ : 0 < S_.numel
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x128_0_1_2 : S128x1024x1.BroadcastsInDim S128x1024x128 (![0, 1, 2] : Fin 3 → Fin S128x1024x128.rank)
  transposes_S128x1024x128_S128x128x1024_0_2_1 : S128x1024x128.Transposes [0, 2, 1] S128x128x1024
  bcast_S_S128x128x1024 : S_.BroadcastsInDim S128x128x1024 (![] : Fin 0 → Fin S128x128x1024.rank)
  reducesTo_S128x128x1024_S128x128_d2 : S128x128x1024.ReducesTo [2] S128x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128x1_S128x128x1024_0_1_2 : S128x128x1.BroadcastsInDim S128x128x1024 (![0, 1, 2] : Fin 3 → Fin S128x128x1024.rank)
  dot_S128x1024x1024_S128x128x1024_S128x1024x128_2_2_1_1_0_0_wf : DotDims.WF S128x1024x1024 S128x128x1024 S128x1024x128 [2] [2] [1] [1] [0] [0]
  dot_S128x128x1024_S128x1024x1024_S128x128x1024_2_1_1_2_0_0_wf : DotDims.WF S128x128x1024 S128x1024x1024 S128x128x1024 [2] [1] [1] [2] [0] [0]

variable [Facts₀]

def dot_S128x1024x1024_S128x128x1024_S128x1024x128_2_2_1_1_0_0 : DotDims S128x1024x1024 S128x128x1024 S128x1024x128 where
  lhsContracting := [2]
  rhsContracting := [2]
  lhsNonContracting := [1]
  rhsNonContracting := [1]
  lhsBatch := [0]
  rhsBatch := [0]
  wf := dot_S128x1024x1024_S128x128x1024_S128x1024x128_2_2_1_1_0_0_wf
def dot_S128x128x1024_S128x1024x1024_S128x128x1024_2_1_1_2_0_0 : DotDims S128x128x1024 S128x1024x1024 S128x128x1024 where
  lhsContracting := [2]
  rhsContracting := [1]
  lhsNonContracting := [1]
  rhsNonContracting := [2]
  lhsBatch := [0]
  rhsBatch := [0]
  wf := dot_S128x128x1024_S128x1024x1024_S128x128x1024_2_1_1_2_0_0_wf

class Facts : Prop extends Facts₀ where

variable [Facts]
-- ==== Proof.RefTerm.lean ====
/-
  The reference program's results as pure terms of its two argument arrays, one definition per stage of the
  computation (each the host operations of that stage composed, in the program's own order and with its own
  shape facts), at any float instance:
    `rScore`  — the batched product of the context with the query over the features,  [128, 1024, 128];
    `rLeaky`  — its leaky rectifier (compare with zero, a tenth of the value, select);
    `rNorm`   — per (batch, context row): the root of the sum of squares over the query axis, plus `ε`, [128, 1024, 1];
    `rScaled` — the quotient by the norm, transposed to [128, 128, 1024] and scaled by nine;
    `rMax`    — per (batch, query row): the maximum over the context axis, from minus infinity,    [128, 128];
    `rExp`    — the exponential of the scaled score less that maximum;
    `rAttn`   — that exponential over its sum along the context axis: the attention weights (a result);
    `rWctx`   — the batched product of the weights with the context (a result).
-/
import proofs.«109686_j89361089561147_1_alg».proof.ReferenceIdeal

noncomputable section

namespace Cert.RefTerm

open Idealize.ShloMosaic Cert.ReferenceIdeal
open Cert.ReferenceIdeal.Facts₀

variable {F : FTy → Type} [FloatOps F] [Cert.ReferenceIdeal.Facts]
variable (q : FVec F S128x128x1024 .f32) (ctx : FVec F S128x1024x1024 .f32)

def rScore : FVec F S128x1024x128 .f32 :=
  Host.dotGeneral dot_S128x1024x1024_S128x128x1024_S128x1024x128_2_2_1_1_0_0 none ctx q

def rLeaky : FVec F S128x1024x128 .f32 :=
  select
    (cmpf .oge (rScore q ctx) (broadcastInDim S128x1024x128 ![] bcast_S_S128x1024x128 (constant S_ .f32 0x00000000#32)))
    (rScore q ctx)
    (mulf (broadcastInDim S128x1024x128 ![] bcast_S_S128x1024x128 (id (constant S_ .f32 0x3DCCCCCD#32))) (rScore q ctx))

def rNorm : FVec F S128x1024x1 .f32 :=
  addf
    (Host.sqrt (broadcastInDim S128x1024x1 ![0, 1] bcast_S128x1024_S128x1024x1_0_1
      (Host.reduceAdd (mulf (rLeaky q ctx) (rLeaky q ctx)) (constant S_ .f32 0x00000000#32)
        reducesTo_S128x1024x128_S128x1024_d2 h_S_)))
    (broadcastInDim S128x1024x1 ![] bcast_S_S128x1024x1 (constant S_ .f32 0x322BCC77#32))

def rScaled : FVec F S128x128x1024 .f32 :=
  mulf
    (transpose S128x128x1024 [0, 2, 1]
      (Host.divf (rLeaky q ctx) (broadcastInDim S128x1024x128 ![0, 1, 2] bcast_S128x1024x1_S128x1024x128_0_1_2 (rNorm q ctx)))
      transposes_S128x1024x128_S128x128x1024_0_2_1)
    (broadcastInDim S128x128x1024 ![] bcast_S_S128x128x1024 (constant S_ .f32 0x41100000#32))

def rMax : FVec F S128x128 .f32 :=
  maximumf
    (broadcastInDim S128x128 ![] bcast_S_S128x128 (constant S_ .f32 0xFF800000#32))
    (Host.reduce FloatOps.maximumf (rScaled q ctx) (constant S_ .f32 0xFF800000#32) reducesTo_S128x128x1024_S128x128_d2 h_S_)

def rExp : FVec F S128x128x1024 .f32 :=
  Host.exp (subf (rScaled q ctx)
    (broadcastInDim S128x128x1024 ![0, 1, 2] bcast_S128x128x1_S128x128x1024_0_1_2
      (broadcastInDim S128x128x1 ![0, 1] bcast_S128x128_S128x128x1_0_1 (rMax q ctx))))

def rAttn : FVec F S128x128x1024 .f32 :=
  Host.divf (rExp q ctx)
    (broadcastInDim S128x128x1024 ![0, 1, 2] bcast_S128x128x1_S128x128x1024_0_1_2
      (broadcastInDim S128x128x1 ![0, 1] bcast_S128x128_S128x128x1_0_1
        (Host.reduceAdd (rExp q ctx) (constant S_ .f32 0x00000000#32) reducesTo_S128x128x1024_S128x128_d2 h_S_)))

def rWctx : FVec F S128x128x1024 .f32 :=
  Host.dotGeneral dot_S128x128x1024_S128x1024x1024_S128x128x1024_2_1_1_2_0_0 none (rAttn q ctx) ctx

end Cert.RefTerm

end
-- ==== Proof.RefRun.lean ====
/-
  The run of the reference program, read back.

  The program's @main, with its one outlined function (the leaky rectifier, which itself calls the
  selection function) unfolded at the call, is a straight line of 38 host operations: the batched
  product of the context with the query, the tenth, the rectifier's seven (zero, its broadcast, the
  comparison, the tenth converted, its broadcast, the product, the selection), then the squares,
  their sum over the query axis, the root, the small constant added, the quotient, the transposition,
  the scaling by nine, the row maximum folded from minus infinity, the shifted exponential, its row
  sum, the quotient (the attention weights) and the batched product of the weights with the context.

  Every weakly fair execution of that line terminates, and at its end the two result buffers hold
  the composed terms `rAttn` and `rWctx` of the two argument arrays as the launch left them, and the
  arguments are unchanged. Nothing here is computed: each equation is the fold of the operations'
  results unrolled, read at one buffer.
-/
import proofs.«109686_j89361089561147_1_alg».proof.Proof.RefTerm
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- @main's 38 operations in order, the rectifier's seven listed where it is called, over that call's buffers. -/
abbrev ops : List (HloOp τ sig (Elt F)) :=
  [ binary main_arg1 main_arg0 main_v0 ((fun l r => Host.dotGeneral dot_S128x1024x1024_S128x128x1024_S128x1024x128_2_2_1_1_0_0 none l r) : (⟨S128x1024x1024, .f32⟩ : BufTy).Contents (Elt F) → (⟨S128x128x1024, .f32⟩ : BufTy).Contents (Elt F) → (⟨S128x1024x128, .f32⟩ : BufTy).Contents (Elt F)),
    nullary main_cst (constant S_ .f32 0x3DCCCCCD#32),
    TRef.nullary main_call0.cst (constant S_ .f32 0x00000000#32),
    TRef.unary main_call0.cst main_call0.v0 (broadcastInDim S128x1024x128 ![] bcast_S_S128x1024x128),
    TRef.binary (.of main_v0) main_call0.v0 main_call0.v1 (cmpf .oge),
    TRef.unary (.of main_cst) main_call0.v2 id,
    TRef.unary main_call0.v2 main_call0.v3 (broadcastInDim S128x1024x128 ![] bcast_S_S128x1024x128),
    TRef.binary main_call0.v3 (.of main_v0) main_call0.v4 mulf,
    TRef.ternary main_call0.v1 (.of main_v0) main_call0.v4 main_call0.call0.v0 select,
    binary main_v1 main_v1 main_v2 (mulf : (⟨S128x1024x128, .f32⟩ : BufTy).Contents (Elt F) → (⟨S128x1024x128, .f32⟩ : BufTy).Contents (Elt F) → (⟨S128x1024x128, .f32⟩ : BufTy).Contents (Elt F)),
    nullary main_cst_0 (constant S_ .f32 0x00000000#32),
    binary main_v2 main_cst_0 main_v3 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F)),
    unary main_v3 main_v4 (broadcastInDim S128x1024x1 ![0, 1] bcast_S128x1024_S128x1024x1_0_1 : (⟨S128x1024, .f32⟩ : BufTy).Contents (Elt F) → (⟨S128x1024x1, .f32⟩ : BufTy).Contents (Elt F)),
    unary main_v4 main_v5 (Host.sqrt : (⟨S128x1024x1, .f32⟩ : BufTy).Contents (Elt F) → (⟨S128x1024x1, .f32⟩ : BufTy).Contents (Elt F)),
    nullary main_cst_1 (constant S_ .f32 0x322BCC77#32),
    unary main_cst_1 main_v6 (broadcastInDim S128x1024x1 ![] bcast_S_S128x1024x1 : (⟨S_, .f32⟩ : BufTy).Contents (Elt F) → (⟨S128x1024x1, .f32⟩ : BufTy).Contents (Elt F)),
    binary main_v5 main_v6 main_v7 (addf : (⟨S128x1024x1, .f32⟩ : BufTy).Contents (Elt F) → (⟨S128x1024x1, .f32⟩ : BufTy).Contents (Elt F) → (⟨S128x1024x1, .f32⟩ : BufTy).Contents (Elt F)),
    unary main_v7 main_v8 (broadcastInDim S128x1024x128 ![0, 1, 2] bcast_S128x1024x1_S128x1024x128_0_1_2 : (⟨S128x1024x1, .f32⟩ : BufTy).Contents (Elt F) → (⟨S128x1024x128, .f32⟩ : BufTy).Contents (Elt F)),
    binary main_v1 main_v8 main_v9 (Host.divf : (⟨S128x1024x128, .f32⟩ : BufTy).Contents (Elt F) → (⟨S128x1024x128, .f32⟩ : BufTy).Contents (Elt F) → (⟨S128x1024x128, .f32⟩ : BufTy).Contents (Elt F)),
    unary main_v9 main_v10 ((transpose S128x128x1024 [0, 2, 1] · transposes_S128x1024x128_S128x128x1024_0_2_1) : (⟨S128x1024x128, .f32⟩ : BufTy).Contents (Elt F) → (⟨S128x128x1024, .f32⟩ : BufTy).Contents (Elt F)),
    nullary main_cst_2 (constant S_ .f32 0x41100000#32),
    unary main_cst_2 main_v11 (broadcastInDim S128x128x1024 ![] bcast_S_S128x128x1024 : (⟨S_, .f32⟩ : BufTy).Contents (Elt F) → (⟨S128x128x1024, .f32⟩ : BufTy).Contents (Elt F)),
    binary main_v10 main_v11 main_v12 (mulf : (⟨S128x128x1024, .f32⟩ : BufTy).Contents (Elt F) → (⟨S128x128x1024, .f32⟩ : BufTy).Contents (Elt F) → (⟨S128x128x1024, .f32⟩ : BufTy).Contents (Elt F)),
    nullary main_cst_3 (constant S_ .f32 0xFF800000#32),
    binary main_v12 main_cst_3 main_v13 ((fun x v => Host.reduce FloatOps.maximumf x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    nullary main_cst_4 (constant S_ .f32 0xFF800000#32),
    unary main_cst_4 main_v14 (broadcastInDim S128x128 ![] bcast_S_S128x128 : (⟨S_, .f32⟩ : BufTy).Contents (Elt F) → (⟨S128x128, .f32⟩ : BufTy).Contents (Elt F)),
    binary main_v14 main_v13 main_v15 (maximumf : (⟨S128x128, .f32⟩ : BufTy).Contents (Elt F) → (⟨S128x128, .f32⟩ : BufTy).Contents (Elt F) → (⟨S128x128, .f32⟩ : BufTy).Contents (Elt F)),
    unary main_v15 main_v16 (broadcastInDim S128x128x1 ![0, 1] bcast_S128x128_S128x128x1_0_1 : (⟨S128x128, .f32⟩ : BufTy).Contents (Elt F) → (⟨S128x128x1, .f32⟩ : BufTy).Contents (Elt F)),
    unary main_v16 main_v17 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v12 main_v17 main_v18 (subf : (⟨S128x128x1024, .f32⟩ : BufTy).Contents (Elt F) → (⟨S128x128x1024, .f32⟩ : BufTy).Contents (Elt F) → (⟨S128x128x1024, .f32⟩ : BufTy).Contents (Elt F)),
    unary main_v18 main_v19 (Host.exp : (⟨S128x128x1024, .f32⟩ : BufTy).Contents (Elt F) → (⟨S128x128x1024, .f32⟩ : BufTy).Contents (Elt F)),
    nullary main_cst_5 (constant S_ .f32 0x00000000#32),
    binary main_v19 main_cst_5 main_v20 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v20 main_v21 (broadcastInDim S128x128x1 ![0, 1] bcast_S128x128_S128x128x1_0_1 : (⟨S128x128, .f32⟩ : BufTy).Contents (Elt F) → (⟨S128x128x1, .f32⟩ : BufTy).Contents (Elt F)),
    unary main_v21 main_v22 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v19 main_v22 main_v23 (Host.divf : (⟨S128x128x1024, .f32⟩ : BufTy).Contents (Elt F) → (⟨S128x128x1024, .f32⟩ : BufTy).Contents (Elt F) → (⟨S128x128x1024, .f32⟩ : BufTy).Contents (Elt F)),
    binary main_v23 main_arg1 main_v24 ((fun l r => Host.dotGeneral dot_S128x128x1024_S128x1024x1024_S128x128x1024_2_1_1_2_0_0 none l r) : (⟨S128x128x1024, .f32⟩ : BufTy).Contents (Elt F) → (⟨S128x1024x1024, .f32⟩ : BufTy).Contents (Elt F) → (⟨S128x128x1024, .f32⟩ : BufTy).Contents (Elt F)) ]

-- thirty-eight binds re-associated: the rewrite under the chain recurses once per statement
set_option maxRecDepth 1024 in
/-- @main is that straight line: the two functions' definitions unfolded at their calls, both sides are one chain
    of host steps once the sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., unary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub ..⟩

/-- The fold of the 38 operations read at the attention weights' buffer: the composed term of the two arguments. -/
theorem attn_eq (V : Valuation τ sig (Elt F)) :
    after ops V (main_v23 : DevRef τ sig)
      = Cert.RefTerm.rAttn (V (main_arg0 : DevRef τ sig)) (V (main_arg1 : DevRef τ sig)) := by
  after_results_simp
  rfl

/-- The same fold read at the weighted context's buffer. -/
theorem wctx_eq (V : Valuation τ sig (Elt F)) :
    after ops V (main_v24 : DevRef τ sig)
      = Cert.RefTerm.rWctx (V (main_arg0 : DevRef τ sig)) (V (main_arg1 : DevRef τ sig)) := by
  after_results_simp
  rfl

/-- No operation writes the query's buffer. -/
theorem arg0_eq (V : Valuation τ sig (Elt F)) :
    after ops V (main_arg0 : DevRef τ sig) = V (main_arg0 : DevRef τ sig) := by
  after_results_simp

/-- No operation writes the context's buffer. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the attention weights and the weighted context at their composed terms of the two arguments'
    launch contents, and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v23) = Cert.RefTerm.rAttn (m ((c.tc : Thread nD τ).loc main_arg0)) (m ((c.tc : Thread nD τ).loc main_arg1))
      ∧ r.2.mem ((c.tc : Thread nD τ).loc main_v24) = Cert.RefTerm.rWctx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (attn_eq (launchContents m c)),
      (h c main_v24).trans (wctx_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.RefRun

end
-- ==== Proof.Spec.lean ====
/-
  The mathematics both programs compute, for ONE batch element, over the extended reals.

  A batch element has a query matrix `Q : 128 × 1024` (rows `a`, features `d`) and a context matrix
  `C : 1024 × 1024` (rows `c`, features `d`). With `s(c,a) = ∑_d C(c,d)·Q(a,d)`:
    * `lk(c,a)`   — the leaky rectifier of `s(c,a)`: `s` where `s ≥ 0`, else `0.1·s`;
    * `nrm(c)`    — `sqrt(∑_a lk(c,a)²) + ε`, the Euclidean norm of row `c` over the query axis, plus `ε`;
    * `sc(a,c)`   — `lk(c,a) / nrm(c) · 9`, the normalised score, transposed and scaled;
    * `rmax(a)`   — `max(-∞, max_c sc(a,c))`, the row's maximum (folded from `-∞`);
    * `ex(a,c)`   — `exp(sc(a,c) - rmax(a))`;
    * `den(a)`    — `∑_c ex(a,c)`;
    * `attn(a,c)` — `ex(a,c) / den(a)`: the softmax over the context axis;
    * `wctx(a,d)` — `∑_c attn(a,c)·C(c,d)`: the attention-weighted context.
  Every float literal is kept as its 32-bit word; both programs carry the same words, so none is ever evaluated.
-/
import Idealize.ShloMosaic.PureOps.Ideal
import Idealize.ShloMosaic.Lib.ValueIdx

noncomputable section

namespace Cert.AttnSpec

open Idealize.ShloMosaic

/-- The leaky rectifier on an extended real: the value itself where it is at least zero, a tenth of it otherwise
    (the comparison and both literals as the programs print them). -/
def leaky (s : EReal) : EReal :=
  Scalar.select (Ideal.cmp .oge s (Ideal.ofBits .f32 0x00000000#32)) s (Ideal.ofBits .f32 0x3DCCCCCD#32 * s)

variable (Q : Fin 128 → Fin 1024 → EReal) (C : Fin 1024 → Fin 1024 → EReal)

/-- The raw score of context row `c` against query row `a`: their inner product over the features. -/
def score (c : Fin 1024) (a : Fin 128) : EReal := ∑ d : Fin 1024, C c d * Q a d

/-- The rectified score. -/
def lk (c : Fin 1024) (a : Fin 128) : EReal := leaky (score Q C c a)

/-- The norm of context row `c`'s rectified scores over the query axis, plus the small constant. -/
def nrm (c : Fin 1024) : EReal :=
  Ideal.sqrt (∑ a : Fin 128, lk Q C c a * lk Q C c a) + Ideal.ofBits .f32 0x322BCC77#32

/-- The normalised score at (query row, context row), scaled by nine. -/
def sc (a : Fin 128) (c : Fin 1024) : EReal :=
  Ideal.div (lk Q C c a) (nrm Q C c) * Ideal.ofBits .f32 0x41100000#32

/-- The maximum of query row `a`'s scaled scores over the context axis, folded from minus infinity. -/
def rmax (a : Fin 128) : EReal :=
  max (Ideal.ofBits .f32 0xFF800000#32)
    ((Finset.univ : Finset (Fin 1024)).fold max (Ideal.ofBits .f32 0xFF800000#32) (fun c => sc Q C a c))

/-- The shifted exponential. -/
def ex (a : Fin 128) (c : Fin 1024) : EReal := Ideal.exp (sc Q C a c - rmax Q C a)

/-- The softmax's denominator. -/
def den (a : Fin 128) : EReal := ∑ c : Fin 1024, ex Q C a c

/-- The attention weights: the softmax of the scaled normalised scores over the context axis. -/
def attn (a : Fin 128) (c : Fin 1024) : EReal := Ideal.div (ex Q C a c) (den Q C a)

/-- The weighted context: attention weights times the context matrix. -/
def wctx (a : Fin 128) (d : Fin 1024) : EReal := ∑ c : Fin 1024, attn Q C a c * C c d

end Cert.AttnSpec

end
-- ==== Proof.SpecArr.lean ====
/-
  The two computed results as functions of the WHOLE argument arrays: at index (b, a, x) the per-batch
  quantity of `Spec.lean` for batch element b — the query matrix `q[b]` and the context matrix `ctx[b]` —
  at (a, x). Both programs' result arrays are shown to be these two functions of their arguments.
-/
import proofs.«109686_j89361089561147_1_alg».proof.Proof.Spec

noncomputable section

namespace Cert.AttnSpec

open Idealize.ShloMosaic Idealize.ShloMosaic.ValueIdx

/-- The attention weights over the whole batch: `attn` of batch element `i 0` at (`i 1`, `i 2`). -/
def attnArr (q : (⟨3, ![128, 128, 1024]⟩ : Shape).Idx → EReal) (ctx : (⟨3, ![128, 1024, 1024]⟩ : Shape).Idx → EReal) :
    (⟨3, ![128, 128, 1024]⟩ : Shape).Idx → EReal :=
  fun i => attn (fun a d => q (ix3 (i 0) a d)) (fun c d => ctx (ix3 (i 0) c d)) (i 1) (i 2)

/-- The weighted context over the whole batch: `wctx` of batch element `i 0` at (`i 1`, `i 2`). -/
def wctxArr (q : (⟨3, ![128, 128, 1024]⟩ : Shape).Idx → EReal) (ctx : (⟨3, ![128, 1024, 1024]⟩ : Shape).Idx → EReal) :
    (⟨3, ![128, 128, 1024]⟩ : Shape).Idx → EReal :=
  fun i => wctx (fun a d => q (ix3 (i 0) a d)) (fun c d => ctx (ix3 (i 0) c d)) (i 1) (i 2)

theorem attnArr_ix3 (q : (⟨3, ![128, 128, 1024]⟩ : Shape).Idx → EReal) (ctx : (⟨3, ![128, 1024, 1024]⟩ : Shape).Idx → EReal)
    (b a : Fin 128) (x : Fin 1024) :
    attnArr q ctx (ix3 b a x) = attn (fun a d => q (ix3 b a d)) (fun c d => ctx (ix3 b c d)) a x := rfl

theorem wctxArr_ix3 (q : (⟨3, ![128, 128, 1024]⟩ : Shape).Idx → EReal) (ctx : (⟨3, ![128, 1024, 1024]⟩ : Shape).Idx → EReal)
    (b a : Fin 128) (x : Fin 1024) :
    wctxArr q ctx (ix3 b a x) = wctx (fun a d => q (ix3 b a d)) (fun c d => ctx (ix3 b c d)) a x := rfl

end Cert.AttnSpec

end
-- ==== Proof.RefRead.lean ====
/-
  The reference program's result terms, read at one index, are the specification's functions of that index's batch element.

  For a batch element `b` let `Q = query[b]` (128 × 1024) and `C = context[b]` (1024 × 1024). Stage by stage:
    * the first batched product contracts both operands' last axes, so at `(b, c, a)` it is `∑_d C(c,d)·Q(a,d)`;
    * the rectifier, the quotient by the norm, the scaling and the exponential are pointwise, so they read through;
    * a sum or a maximum over the last axis of a rank-3 array, read at `(b, r)`, is the sum or the fold of `max` over
      that row, from the initial value (a zero initial value disappears from the sum);
    * a matrix given a trailing unit axis, and a column copied along that unit axis, read the one entry they copy;
    * the transpose of the last two axes swaps the two coordinates;
    * the second batched product contracts the left operand's last axis with the right operand's middle axis, so at
      `(b, a, d)` it is `∑_c attn(a,c)·C(c,d)`.
  Composed, the attention weights at `(b, a, c)` are `attn Q C a c` and the weighted context at `(b, a, d)` is
  `wctx Q C a d`.
-/
import proofs.«109686_j89361089561147_1_alg».proof.Proof.RefTerm
import proofs.«109686_j89361089561147_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

namespace Cert.RefRead

open Idealize.ShloMosaic Idealize.ShloMosaic.ValueIdx Cert.ReferenceIdeal
open scoped BigOperators

/-! ## A batched product contracting both operands' last axes

For stacks `A : [G, m, k]` and `B : [G, n, k]` the product with batch axes 0 and 0 and contracting axes 2 and 2 is,
member by member, `A · Bᵀ`: at `(g, a, b)` the sum over the contracted coordinate `c` of `A (g, a, c) * B (g, b, c)`. -/

section StackT
variable {G m n k : ℕ}

/-- The dimension numbers of that product. -/
abbrev dimsT (w : DotDims.WF ⟨3, ![G, m, k]⟩ ⟨3, ![G, n, k]⟩ ⟨3, ![G, m, n]⟩ [2] [2] [1] [1] [0] [0]) :
    DotDims ⟨3, ![G, m, k]⟩ ⟨3, ![G, n, k]⟩ ⟨3, ![G, m, n]⟩ := ⟨[2], [2], [1], [1], [0], [0], w⟩

variable (w : DotDims.WF ⟨3, ![G, m, k]⟩ ⟨3, ![G, n, k]⟩ ⟨3, ![G, m, n]⟩ [2] [2] [1] [1] [0] [0])

/-- The left operand's batch coordinate is the result's. -/
theorem dimsT_lhs_0 (j : (⟨3, ![G, m, n]⟩ : Shape).Idx) (κ : (dimsT w).contr.Idx) :
    ((dimsT w).lhsIdx j κ 0).val = (j 0).val := by
  simp [DotDims.lhsIdx]; rfl

/-- The left operand's row coordinate is the result's row. -/
theorem dimsT_lhs_1 (j : (⟨3, ![G, m, n]⟩ : Shape).Idx) (κ : (dimsT w).contr.Idx) :
    ((dimsT w).lhsIdx j κ 1).val = (j 1).val := by
  simp [DotDims.lhsIdx]; rfl

/-- The left operand's last coordinate is the contraction position. -/
theorem dimsT_lhs_2 (j : (⟨3, ![G, m, n]⟩ : Shape).Idx) (κ : (dimsT w).contr.Idx) :
    ((dimsT w).lhsIdx j κ 2).val = (κ ⟨0, (Nat.one_pos : 0 < (dimsT w).contr.rank)⟩).val :=
  (dimsT w).lhsIdx_val_of_single rfl j κ

/-- The right operand's batch coordinate is the result's. -/
theorem dimsT_rhs_0 (j : (⟨3, ![G, m, n]⟩ : Shape).Idx) (κ : (dimsT w).contr.Idx) :
    ((dimsT w).rhsIdx j κ 0).val = (j 0).val := by
  simp [DotDims.rhsIdx]; rfl

/-- The right operand's row coordinate is the result's column. -/
theorem dimsT_rhs_1 (j : (⟨3, ![G, m, n]⟩ : Shape).Idx) (κ : (dimsT w).contr.Idx) :
    ((dimsT w).rhsIdx j κ 1).val = (j 2).val := by
  simp [DotDims.rhsIdx]; rfl

/-- The right operand's last coordinate is the contraction position. -/
theorem dimsT_rhs_2 (j : (⟨3, ![G, m, n]⟩ : Shape).Idx) (κ : (dimsT w).contr.Idx) :
    ((dimsT w).rhsIdx j κ 2).val = (κ ⟨0, (Nat.one_pos : 0 < (dimsT w).contr.rank)⟩).val :=
  (dimsT w).rhsIdx_val_of_single rfl j κ

/-- The product read at `(g, a, b)`. -/
theorem dotGeneral_stackT_apply {φ₁ φ₂ : FTy} (prec : Option ContractPrecision)
    (A : FVec Ideal ⟨3, ![G, m, k]⟩ φ₁) (B : FVec Ideal ⟨3, ![G, n, k]⟩ φ₂) (g : Fin G) (a : Fin m) (b : Fin n) :
    Host.dotGeneral (dimsT w) prec A B (ix3 g a b) = ∑ c : Fin k, A (ix3 g a c) * B (ix3 g b c) := by
  simp only [Host.dotGeneral]
  rw [Ideal.dotGeneral_apply, ← Equiv.sum_comp (contrEquiv1 (dimsT w) k rfl rfl).symm]
  refine Finset.sum_congr rfl fun c _ => ?_
  have hc := contrEquiv1_symm_val (dimsT w) k rfl rfl c
  have hl : (dimsT w).lhsIdx (ix3 g a b) ((contrEquiv1 (dimsT w) k rfl rfl).symm c) = ix3 g a c := by
    funext ax; apply Fin.ext
    match ax with
    | ⟨0, _⟩ => exact dimsT_lhs_0 w _ _
    | ⟨1, _⟩ => exact dimsT_lhs_1 w _ _
    | ⟨2, _⟩ => exact (dimsT_lhs_2 w _ _).trans hc
  have hr : (dimsT w).rhsIdx (ix3 g a b) ((contrEquiv1 (dimsT w) k rfl rfl).symm c) = ix3 g b c := by
    funext ax; apply Fin.ext
    match ax with
    | ⟨0, _⟩ => exact dimsT_rhs_0 w _ _
    | ⟨1, _⟩ => exact dimsT_rhs_1 w _ _
    | ⟨2, _⟩ => exact (dimsT_rhs_2 w _ _).trans hc
  rw [hl, hr]

end StackT

/-! ## Host operations of a rank-3 array read at an index -/

section HostAtIndex
variable {α : Type} {a b n : ℕ} {φ : FTy}

/-- The host's square root at an index is the extended reals' square root of the element. -/
theorem hostSqrt_apply {s : Shape} (x : FVec Ideal s φ) (i : s.Idx) : Host.sqrt x i = Ideal.sqrt (x i) := rfl

/-- The host's exponential at an index is the extended reals' exponential of the element. -/
theorem hostExp_apply {s : Shape} (x : FVec Ideal s φ) (i : s.Idx) : Host.exp x i = Ideal.exp (x i) := rfl

/-- A matrix given a trailing unit axis, `[a, b] → [a, b, 1]`, reads at `(p, r, 0)` the matrix at `(p, r)`. -/
theorem broadcastInDim_ab_ab1_apply (h : (⟨2, ![a, b]⟩ : Shape).BroadcastsInDim ⟨3, ![a, b, 1]⟩ ![0, 1])
    (x : (⟨2, ![a, b]⟩ : Shape).Idx → α) (p : Fin a) (r : Fin b) (z : Fin 1) :
    broadcastInDim ⟨3, ![a, b, 1]⟩ ![0, 1] h x (ix3 p r z) = x (ix2 p r) :=
  broadcastInDim_apply _ h x _ _ fun ax => match ax with
    | ⟨0, _⟩ => by
        show p.val = if a = 1 then 0 else p.val
        have := p.isLt; split <;> omega
    | ⟨1, _⟩ => by
        show r.val = if b = 1 then 0 else r.val
        have := r.isLt; split <;> omega

/-- A column stack `[a, b, 1]` copied along its unit axis, `[a, b, 1] → [a, b, n]`, reads at `(p, r, t)` the column
    entry at `(p, r, 0)`. -/
theorem broadcastInDim_ab1_abn_apply (h : (⟨3, ![a, b, 1]⟩ : Shape).BroadcastsInDim ⟨3, ![a, b, n]⟩ ![0, 1, 2])
    (x : (⟨3, ![a, b, 1]⟩ : Shape).Idx → α) (p : Fin a) (r : Fin b) (t : Fin n) :
    broadcastInDim ⟨3, ![a, b, n]⟩ ![0, 1, 2] h x (ix3 p r t) = x (ix3 p r (0 : Fin 1)) :=
  broadcastInDim_apply _ h x _ _ fun ax => match ax with
    | ⟨0, _⟩ => by
        show p.val = if a = 1 then 0 else p.val
        have := p.isLt; split <;> omega
    | ⟨1, _⟩ => by
        show r.val = if b = 1 then 0 else r.val
        have := r.isLt; split <;> omega
    | ⟨2, _⟩ => rfl

/-- The source index over `(p, r)` with `t` inserted on the dropped last axis is `(p, r, t)`. -/
theorem lift_last3 (h : (⟨3, ![a, b, n]⟩ : Shape).Reduces [2] ⟨2, ![a, b]⟩) (p : Fin a) (r : Fin b) (t : Fin n) :
    h.lift (ix2 p r) t = ix3 p r t := by
  funext ax; apply Fin.ext
  match ax with
  | ⟨0, _⟩ => rfl
  | ⟨1, _⟩ => rfl
  | ⟨2, _⟩ => rfl

/-- The host's sum over the last axis of `[a, b, n]`, read at `(p, r)`: the initial value plus the sum of the row. -/
theorem hostReduceAdd_last3_apply (h' : (⟨3, ![a, b, n]⟩ : Shape).ReducesTo [2] ⟨2, ![a, b]⟩)
    (hu : 0 < (⟨0, ![]⟩ : Shape).numel) (x : FVec Ideal ⟨3, ![a, b, n]⟩ φ) (init : (⟨0, ![]⟩ : Shape).Idx → Ideal φ)
    (p : Fin a) (r : Fin b) :
    Host.reduceAdd x init h' hu (ix2 p r) = init (Shape.Idx.first hu) + ∑ t : Fin n, x (ix3 p r t) := by
  have h : (⟨3, ![a, b, n]⟩ : Shape).Reduces [2] ⟨2, ![a, b]⟩ := ⟨h'.1, Nat.two_pos, h'.2⟩
  rw [hostReduceAdd_apply, Ideal.hostReduceAdd_single h' h]
  exact congrArg _ (Finset.sum_congr rfl fun t _ => congrArg x (lift_last3 h p r t))

/-- The host's maximum over the last axis of `[a, b, n]`, read at `(p, r)`: the fold of `max` over the row from the
    initial value. -/
theorem hostReduceMax_last3_apply (h' : (⟨3, ![a, b, n]⟩ : Shape).ReducesTo [2] ⟨2, ![a, b]⟩)
    (hu : 0 < (⟨0, ![]⟩ : Shape).numel) (x : FVec Ideal ⟨3, ![a, b, n]⟩ φ) (init : (⟨0, ![]⟩ : Shape).Idx → Ideal φ)
    (p : Fin a) (r : Fin b) :
    Host.reduce FloatOps.maximumf x init h' hu (ix2 p r)
      = (Finset.univ : Finset (Fin n)).fold max (init (Shape.Idx.first hu)) (fun t => x (ix3 p r t)) := by
  have h : (⟨3, ![a, b, n]⟩ : Shape).Reduces [2] ⟨2, ![a, b]⟩ := ⟨h'.1, Nat.two_pos, h'.2⟩
  rw [Host.reduce_eq_fold_single FloatOps.maximumf x init h' h hu (ix2 p r)]
  have e : (x ∘ h.lift (ix2 p r)) = fun t : Fin n => x (ix3 p r t) := funext fun t => congrArg x (lift_last3 h p r t)
  rw [e]
  rfl

end HostAtIndex

/-! ## The reference's stages read at an index

For batch element `b` write `Q = query[b]` and `C = context[b]`; each stage of the reference, read at coordinates
inside batch element `b`, is the specification's function of `Q` and `C` of the same name. -/

section Stages
variable [Cert.ReferenceIdeal.Facts]
open Cert.ReferenceIdeal.Facts₀
variable (q : FVec Ideal S128x128x1024 .f32) (ctx : FVec Ideal S128x1024x1024 .f32)

/-- The raw score: context row `c` against query row `a`, summed over the features. -/
theorem rScore_apply (b : Fin 128) (c : Fin 1024) (a : Fin 128) :
    Cert.RefTerm.rScore (F := Ideal) q ctx (ix3 b c a)
      = Cert.AttnSpec.score (fun a d => q (ix3 b a d)) (fun c d => ctx (ix3 b c d)) c a := by
  unfold Cert.RefTerm.rScore Cert.AttnSpec.score
  exact dotGeneral_stackT_apply dot_S128x1024x1024_S128x128x1024_S128x1024x128_2_2_1_1_0_0_wf none ctx q b c a

/-- The rectified score: the comparison with zero selects the score or a tenth of it. -/
theorem rLeaky_apply (b : Fin 128) (c : Fin 1024) (a : Fin 128) :
    Cert.RefTerm.rLeaky (F := Ideal) q ctx (ix3 b c a)
      = Cert.AttnSpec.lk (fun a d => q (ix3 b a d)) (fun c d => ctx (ix3 b c d)) c a := by
  unfold Cert.RefTerm.rLeaky Cert.AttnSpec.lk Cert.AttnSpec.leaky
  rw [select_apply, cmpf_apply, mulf_apply, broadcastInDim_scalar_apply, broadcastInDim_scalar_apply, rScore_apply,
    Ideal.cmpf_def]
  rfl

/-- The norm of row `c`'s rectified scores over the query axis, plus the small constant. -/
theorem rNorm_apply (b : Fin 128) (c : Fin 1024) :
    Cert.RefTerm.rNorm (F := Ideal) q ctx (ix3 b c (0 : Fin 1))
      = Cert.AttnSpec.nrm (fun a d => q (ix3 b a d)) (fun c d => ctx (ix3 b c d)) c := by
  unfold Cert.RefTerm.rNorm Cert.AttnSpec.nrm
  rw [addf_apply, hostSqrt_apply, broadcastInDim_ab_ab1_apply, hostReduceAdd_last3_apply, broadcastInDim_scalar_apply,
    constant_apply, constant_apply, Ideal.ofBits_zero_f32, zero_add]
  simp only [mulf_apply, rLeaky_apply]

/-- The normalised score, transposed to (query row, context row) and scaled by nine. -/
theorem rScaled_apply (b : Fin 128) (a : Fin 128) (c : Fin 1024) :
    Cert.RefTerm.rScaled (F := Ideal) q ctx (ix3 b a c)
      = Cert.AttnSpec.sc (fun a d => q (ix3 b a d)) (fun c d => ctx (ix3 b c d)) a c := by
  unfold Cert.RefTerm.rScaled Cert.AttnSpec.sc
  rw [mulf_apply, transpose_ix3_021_apply, hostDivf_apply, broadcastInDim_ab1_abn_apply, broadcastInDim_scalar_apply,
    constant_apply, rLeaky_apply, rNorm_apply]

/-- The row maximum over the context axis, folded from minus infinity. -/
theorem rMax_apply (b : Fin 128) (a : Fin 128) :
    Cert.RefTerm.rMax (F := Ideal) q ctx (ix2 b a)
      = Cert.AttnSpec.rmax (fun a d => q (ix3 b a d)) (fun c d => ctx (ix3 b c d)) a := by
  unfold Cert.RefTerm.rMax Cert.AttnSpec.rmax
  rw [maximumf_apply, broadcastInDim_scalar_apply, constant_apply, hostReduceMax_last3_apply, constant_apply]
  simp only [rScaled_apply]

/-- The shifted exponential. -/
theorem rExp_apply (b : Fin 128) (a : Fin 128) (c : Fin 1024) :
    Cert.RefTerm.rExp (F := Ideal) q ctx (ix3 b a c)
      = Cert.AttnSpec.ex (fun a d => q (ix3 b a d)) (fun c d => ctx (ix3 b c d)) a c := by
  unfold Cert.RefTerm.rExp Cert.AttnSpec.ex
  rw [hostExp_apply, subf_apply, broadcastInDim_ab1_abn_apply, broadcastInDim_ab_ab1_apply, rScaled_apply, rMax_apply]

/-- The attention weights: the shifted exponential over its sum along the context axis. -/
theorem rAttn_apply (b a : Fin 128) (c : Fin 1024) :
    Cert.RefTerm.rAttn (F := Ideal) q ctx (ix3 b a c)
      = Cert.AttnSpec.attn (fun a d => q (ix3 b a d)) (fun c d => ctx (ix3 b c d)) a c := by
  unfold Cert.RefTerm.rAttn Cert.AttnSpec.attn Cert.AttnSpec.den
  rw [hostDivf_apply, broadcastInDim_ab1_abn_apply, broadcastInDim_ab_ab1_apply, hostReduceAdd_last3_apply,
    constant_apply, Ideal.ofBits_zero_f32, zero_add]
  simp only [rExp_apply]

/-- The weighted context: the attention weights times the context matrix. -/
theorem rWctx_apply (b a : Fin 128) (d : Fin 1024) :
    Cert.RefTerm.rWctx (F := Ideal) q ctx (ix3 b a d)
      = Cert.AttnSpec.wctx (fun a d => q (ix3 b a d)) (fun c d => ctx (ix3 b c d)) a d := by
  unfold Cert.RefTerm.rWctx Cert.AttnSpec.wctx
  refine (StackMember.dotGeneral_stack_apply dot_S128x128x1024_S128x1024x1024_S128x128x1024_2_1_1_2_0_0_wf none
    (Cert.RefTerm.rAttn (F := Ideal) q ctx) ctx b a d).trans ?_
  simp only [rAttn_apply]

end Stages

end Cert.RefRead

end
-- ==== Proof.KerPay0.lean ====
/-
  The layout operations, the two matrix products and the row reductions of the attention kernel's body, each read at
  an index given by its coordinates.

  * a vector [a] cast to the column [a, 1], and a column [a, 1] broadcast along the rows to [a, b];
  * the product [1024, 1024] · [1024, 128] and the product [128, 1024] · [1024, 1024], each into the zero
    accumulator: the sum over the contracted coordinate of the operands' products;
  * the sum of a [1024, 128] matrix's rows, the sum of a [128, 1024] matrix's rows, and the maximum of a
    [128, 1024] matrix's rows folded from minus infinity.
-/
import proofs.«109686_j89361089561147_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KerPay

open Idealize.ShloMosaic Idealize.ShloMosaic.ValueIdx Cert.KernelIdeal Cert.KernelIdeal.Gen

/-! ## The column cast and the column broadcast -/

section Columns
variable {α : Type}

/-- A vector [a] cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The product of the context by the transposed query: [1024, 1024] · [1024, 128] -/

theorem lhs_scoreDot_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem lhs_scoreDot_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q

theorem rhs_scoreDot_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q

theorem rhs_scoreDot_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The product into the zero accumulator, at (c, a): the sum over the feature d of L (c, d) · R (d, a). -/
theorem scoreDot_apply {φ₁ φ₂ : FTy} (L : FVec Ideal S1024x1024 φ₁) (R : FVec Ideal S1024x128 φ₂) (c : Fin 1024) (a : Fin 128) :
    matmul dot_S1024x1024_S1024x128_S1024x128_1_0_0_1_n_n none L R (constant (F := Ideal) S1024x128 .f32 0x00000000#32) (ix2 c a)
      = ∑ d : Fin 1024, L (ix2 c d) * R (ix2 d a) := by
  refine (Ideal.matmul_constant_zero_apply dot_S1024x1024_S1024x128_S1024x128_1_0_0_1_n_n none L R (ix2 c a)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 c a)
      ((contrEquiv1 dot_S1024x1024_S1024x128_S1024x128_1_0_0_1_n_n 1024 rfl rfl).symm k) = ix2 c k :=
    funext fun ax => Fin.ext (by
      match ax with
      | ⟨0, _⟩ => exact lhs_scoreDot_0 _ _
      | ⟨1, _⟩ => exact (lhs_scoreDot_1 _ _).trans hk)
  have er : dot_S1024x1024_S1024x128_S1024x128_1_0_0_1_n_n.rhsIdx (ix2 c a)
      ((contrEquiv1 dot_S1024x1024_S1024x128_S1024x128_1_0_0_1_n_n 1024 rfl rfl).symm k) = ix2 k a :=
    funext fun ax => Fin.ext (by
      match ax with
      | ⟨0, _⟩ => exact (rhs_scoreDot_0 _ _).trans hk
      | ⟨1, _⟩ => exact rhs_scoreDot_1 _ _)
  rw [el, er]

/-! ## The product of the attention weights by the context: [128, 1024] · [1024, 1024] -/

theorem lhs_ctxDot_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

theorem lhs_ctxDot_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q

theorem rhs_ctxDot_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q

theorem rhs_ctxDot_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- The product into the zero accumulator, at (a, d): the sum over the context row c of L (a, c) · R (c, d). -/
theorem ctxDot_apply {φ₁ φ₂ : FTy} (L : FVec Ideal S128x1024 φ₁) (R : FVec Ideal S1024x1024 φ₂) (a : Fin 128) (d : Fin 1024) :
    matmul dot_S128x1024_S1024x1024_S128x1024_1_0_0_1_n_n none L R (constant (F := Ideal) S128x1024 .f32 0x00000000#32) (ix2 a d)
      = ∑ c : Fin 1024, L (ix2 a c) * R (ix2 c d) := by
  refine (Ideal.matmul_constant_zero_apply dot_S128x1024_S1024x1024_S128x1024_1_0_0_1_n_n none L R (ix2 a d)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 a d)
      ((contrEquiv1 dot_S128x1024_S1024x1024_S128x1024_1_0_0_1_n_n 1024 rfl rfl).symm k) = ix2 a k :=
    funext fun ax => Fin.ext (by
      match ax with
      | ⟨0, _⟩ => exact lhs_ctxDot_0 _ _
      | ⟨1, _⟩ => exact (lhs_ctxDot_1 _ _).trans hk)
  have er : dot_S128x1024_S1024x1024_S128x1024_1_0_0_1_n_n.rhsIdx (ix2 a d)
      ((contrEquiv1 dot_S128x1024_S1024x1024_S128x1024_1_0_0_1_n_n 1024 rfl rfl).symm k) = ix2 k d :=
    funext fun ax => Fin.ext (by
      match ax with
      | ⟨0, _⟩ => exact (rhs_ctxDot_0 _ _).trans hk
      | ⟨1, _⟩ => exact rhs_ctxDot_1 _ _)
  rw [el, er]

/-! ## The row reductions -/

/-- The sum of a [1024, 128] matrix over its second axis, at row c. -/
theorem sumRows_1024x128_apply (src : FVec Ideal S1024x128 .f32) (h : S1024x128.Reduces [1] S1024)
    (hφ : FKind.Formats .f32) (hacc : (0x00000000#32 : BitVec 32) = FKind.add.neutral .f32 hφ) (c : Fin 1024) :
    multiReduction (F := Ideal) .add [1] S1024 src 0x00000000#32 h hφ hacc (ix1 c) = ∑ a : Fin 128, src (ix2 c a) := by
  refine (Ideal.multiReduction_add_single src 0x00000000#32 h hφ hacc (ix1 c)).trans ?_
  refine Finset.sum_congr rfl fun k _ => congrArg src ?_
  funext ax
  apply Fin.ext
  match ax with
  | ⟨0, _⟩ => rfl
  | ⟨1, _⟩ => rfl

/-- The sum of a [128, 1024] matrix over its second axis, at row a. -/
theorem sumRows_128x1024_apply (src : FVec Ideal S128x1024 .f32) (h : S128x1024.Reduces [1] S128)
    (hφ : FKind.Formats .f32) (hacc : (0x00000000#32 : BitVec 32) = FKind.add.neutral .f32 hφ) (a : Fin 128) :
    multiReduction (F := Ideal) .add [1] S128 src 0x00000000#32 h hφ hacc (ix1 a) = ∑ c : Fin 1024, src (ix2 a c) := by
  refine (Ideal.multiReduction_add_single src 0x00000000#32 h hφ hacc (ix1 a)).trans ?_
  refine Finset.sum_congr rfl fun k _ => congrArg src ?_
  funext ax
  apply Fin.ext
  match ax with
  | ⟨0, _⟩ => rfl
  | ⟨1, _⟩ => rfl

/-- The maximum of a [128, 1024] matrix over its second axis, at row a: the fold of max from minus infinity's
    word over the row's entries. -/
theorem maxRows_128x1024_apply (src : FVec Ideal S128x1024 .f32) (h : S128x1024.Reduces [1] S128)
    (hφ : FKind.Formats .f32) (hacc : (0xFF800000#32 : BitVec 32) = FKind.maximumf.neutral .f32 hφ) (a : Fin 128) :
    multiReduction (F := Ideal) .maximumf [1] S128 src 0xFF800000#32 h hφ hacc (ix1 a)
      = (Finset.univ : Finset (Fin 1024)).fold max (Ideal.ofBits .f32 0xFF800000#32) (fun c => src (ix2 a c)) := by
  refine (Ideal.multiReduction_maximumf_single src 0xFF800000#32 h hφ hacc (ix1 a)).trans ?_
  refine congrArg (fun f => (Finset.univ : Finset (Fin 1024)).fold max (Ideal.ofBits .f32 0xFF800000#32) f) ?_
  funext k
  refine congrArg src ?_
  funext ax
  apply Fin.ext
  match ax with
  | ⟨0, _⟩ => rfl
  | ⟨1, _⟩ => rfl

end Cert.KerPay

end
-- ==== Proof.KerPay.lean ====
/-
  The attention kernel's body, read at an index, is the specification.

  For one batch element the body takes the context block x0 (a [1, 1024, 1024] array) and the query block x1 (a
  [1, 128, 1024] array). With C (c, d) = x0 (0, c, d) and Q (a, d) = x1 (0, a, d) it forms, in this order: the score
  matrix (c, a) ↦ ∑_d C (c, d) · Q (a, d) as the product of the context by the transposed query; its leaky
  rectification; the column of row norms (the square root of each row's sum of squares, plus the small constant); the
  normalised matrix, transposed to (a, c) and scaled by nine; each row's maximum folded from minus infinity; the
  shifted exponential; each row's sum; the quotient, which is the matrix of attention weights; and last the product of
  the weights by the context. Each stage is named here as a function of the blocks, the body's term is the last stage
  (by unfolding), and each stage at its coordinates is the specification's function of the same name.
-/
import proofs.«109686_j89361089561147_1_alg».proof.Proof.KerPay0
import proofs.«109686_j89361089561147_1_alg».proof.Proof.Spec

noncomputable section

namespace Cert.KerPay

open Idealize.ShloMosaic Idealize.ShloMosaic.ValueIdx Cert.KernelIdeal Cert.KernelIdeal.Gen

/-! ## The square root and the exponential of a vector, at an index -/

theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl

/-! ## The stages, as functions of a matrix -/

/-- The leaky rectifier of a [1024, 128] matrix, entry by entry. -/
def lkOf (v7 : FVec Ideal S1024x128 .f32) : FVec Ideal S1024x128 .f32 :=
  select (cmpf .oge v7 (broadcast S1024x128 (Scalar.ofBits (F := Ideal) .f32 0x00000000#32))) v7
    (mulf (broadcast S1024x128 (Scalar.ofBits (F := Ideal) .f32 0x3DCCCCCD#32)) v7)

/-- The column of row norms of a [1024, 128] matrix, plus the small constant. -/
def nrmOf (v12 : FVec Ideal S1024x128 .f32) : FVec Ideal S1024x1 .f32 :=
  addf (sqrt (shapeCast S1024x1
      (multiReduction (F := Ideal) .add [1] S1024 (mulf v12 v12) 0x00000000#32 reduces_S1024x128_S1024 (.inl rfl) rfl)
      shapeCasts_S1024_S1024x1))
    (broadcast S1024x1 (Scalar.ofBits (F := Ideal) .f32 0x322BCC77#32))

/-- A [1024, 128] matrix divided row by row by its norm column, transposed and scaled by nine. -/
def scOf (v12 : FVec Ideal S1024x128 .f32) : FVec Ideal S128x1024 .f32 :=
  mulf (transpose S128x1024 [1, 0] (divf v12 (broadcastTo S1024x128 (nrmOf v12) broadcasts_S1024x1_S1024x128))
      transposes_S1024x128_p1_0_S128x1024)
    (broadcast S128x1024 (Scalar.ofBits (F := Ideal) .f32 0x41100000#32))

/-- The row maxima of a [128, 1024] matrix, folded from minus infinity. -/
def rmaxOf (v23 : FVec Ideal S128x1024 .f32) : FVec Ideal S128 .f32 :=
  maximumf (broadcast S128 (Scalar.ofBits (F := Ideal) .f32 0xFF800000#32))
    (multiReduction (F := Ideal) .maximumf [1] S128 v23 0xFF800000#32 reduces_S128x1024_S128 (.inl rfl) rfl)

/-- The exponential of a [128, 1024] matrix shifted row by row by its row maximum. -/
def exOf (v23 : FVec Ideal S128x1024 .f32) : FVec Ideal S128x1024 .f32 :=
  exp (subf v23 (broadcastTo S128x1024 (shapeCast S128x1 (rmaxOf v23) shapeCasts_S128_S128x1) broadcasts_S128x1_S128x1024))

/-- A [128, 1024] matrix divided row by row by its row sum. -/
def attnOf (v30 : FVec Ideal S128x1024 .f32) : FVec Ideal S128x1024 .f32 :=
  divf v30 (broadcastTo S128x1024
    (shapeCast S128x1
      (multiReduction (F := Ideal) .add [1] S128 v30 0x00000000#32 reduces_S128x1024_S128 (.inl rfl) rfl)
      shapeCasts_S128_S128x1)
    broadcasts_S128x1_S128x1024)

/-! ## The stages, as functions of the two blocks -/

/-- The query block as a matrix, transposed: (d, a) ↦ Q (a, d). -/
def qT (x1 : Vec Ideal S1x128x1024 .f32) : FVec Ideal S1024x128 .bf16 :=
  transpose S1024x128 [1, 0] (truncf .bf16 (shapeCast S128x1024 x1 shapeCasts_S1x128x1024_S128x1024) bitsLt_bf16_f32)
    transposes_S128x1024_p1_0_S1024x128

/-- The score matrix: the context times the transposed query. -/
def scoreV (x0 : Vec Ideal S1x1024x1024 .f32) (x1 : Vec Ideal S1x128x1024 .f32) : FVec Ideal S1024x128 .f32 :=
  matmul dot_S1024x1024_S1024x128_S1024x128_1_0_0_1_n_n none (k0_pay2 (F := Ideal) x0) (qT x1)
    (constant (F := Ideal) S1024x128 .f32 0x00000000#32)

/-- The rectified scores. -/
def lkV (x0 : Vec Ideal S1x1024x1024 .f32) (x1 : Vec Ideal S1x128x1024 .f32) : FVec Ideal S1024x128 .f32 :=
  lkOf (scoreV x0 x1)

/-- The normalised, transposed, scaled scores. -/
def scV (x0 : Vec Ideal S1x1024x1024 .f32) (x1 : Vec Ideal S1x128x1024 .f32) : FVec Ideal S128x1024 .f32 :=
  scOf (lkV x0 x1)

/-- The shifted exponentials. -/
def exV (x0 : Vec Ideal S1x1024x1024 .f32) (x1 : Vec Ideal S1x128x1024 .f32) : FVec Ideal S128x1024 .f32 :=
  exOf (scV x0 x1)

/-- The body's term is the quotient stage of the exponential stage: the two unfold to the same sequence of operations. -/
theorem pay3_eq (x0 : Vec Ideal S1x1024x1024 .f32) (x1 : Vec Ideal S1x128x1024 .f32) :
    k0_pay3 (F := Ideal) x0 x1 = attnOf (exV x0 x1) := rfl

/-! ## Each matrix-level stage at its coordinates -/

theorem lkOf_apply (v7 : FVec Ideal S1024x128 .f32) (i : S1024x128.Idx) : lkOf v7 i = AttnSpec.leaky (v7 i) := rfl

theorem nrmOf_apply (v12 : FVec Ideal S1024x128 .f32) (c : Fin 1024) (u : Fin 1) :
    nrmOf v12 (ix2 c u)
      = Ideal.sqrt (∑ a : Fin 128, v12 (ix2 c a) * v12 (ix2 c a)) + Ideal.ofBits .f32 0x322BCC77#32 := by
  unfold nrmOf
  rw [addf_apply, broadcast_apply, sqrt_apply, shapeCast_a_a1_apply]
  exact congrArg (fun z => Ideal.sqrt z + Ideal.ofBits .f32 0x322BCC77#32)
    (sumRows_1024x128_apply (mulf v12 v12) _ _ _ c)

theorem scOf_apply (v12 : FVec Ideal S1024x128 .f32) (a : Fin 128) (c : Fin 1024) :
    scOf v12 (ix2 a c)
      = Ideal.div (v12 (ix2 c a)) (nrmOf v12 (ix2 c (0 : Fin 1))) * Ideal.ofBits .f32 0x41100000#32 := by
  unfold scOf
  rw [mulf_apply, broadcast_apply, transpose_ix2_apply, divf_apply, broadcastTo_a1_ab_apply]
  rfl

theorem rmaxOf_apply (v23 : FVec Ideal S128x1024 .f32) (a : Fin 128) :
    rmaxOf v23 (ix1 a)
      = max (Ideal.ofBits .f32 0xFF800000#32)
          ((Finset.univ : Finset (Fin 1024)).fold max (Ideal.ofBits .f32 0xFF800000#32) (fun c => v23 (ix2 a c))) := by
  unfold rmaxOf
  rw [maximumf_apply, broadcast_apply]
  exact congrArg (fun z => max (Ideal.ofBits .f32 0xFF800000#32) z) (maxRows_128x1024_apply v23 _ _ _ a)

theorem exOf_apply (v23 : FVec Ideal S128x1024 .f32) (a : Fin 128) (c : Fin 1024) :
    exOf v23 (ix2 a c) = Ideal.exp (v23 (ix2 a c) - rmaxOf v23 (ix1 a)) := by
  unfold exOf
  rw [exp_apply, subf_apply, broadcastTo_a1_ab_apply, shapeCast_a_a1_apply]

theorem attnOf_apply (v30 : FVec Ideal S128x1024 .f32) (a : Fin 128) (c : Fin 1024) :
    attnOf v30 (ix2 a c) = Ideal.div (v30 (ix2 a c)) (∑ c' : Fin 1024, v30 (ix2 a c')) := by
  unfold attnOf
  rw [divf_apply, broadcastTo_a1_ab_apply, shapeCast_a_a1_apply]
  exact congrArg (fun z => Ideal.div (v30 (ix2 a c)) z) (sumRows_128x1024_apply v30 _ _ _ a)

/-! ## Each stage of the body is the specification's -/

section Spec
variable (x0 : Vec Ideal S1x1024x1024 .f32) (x1 : Vec Ideal S1x128x1024 .f32)

/-- The context block read as a matrix. -/
theorem pay2_apply (c d : Fin 1024) : k0_pay2 (F := Ideal) x0 (ix2 c d) = x0 (ix3 (0 : Fin 1) c d) := by
  show shapeCast S1024x1024 x0 shapeCasts_S1x1024x1024_S1024x1024 (ix2 c d) = _
  exact shapeCast_1ab_ab_apply x0 shapeCasts_S1x1024x1024_S1024x1024 c d

/-- The transposed query at (d, a) is the query block at (0, a, d). -/
theorem qT_apply (d : Fin 1024) (a : Fin 128) : qT x1 (ix2 d a) = x1 (ix3 (0 : Fin 1) a d) := by
  unfold qT
  rw [transpose_ix2_apply]
  show shapeCast S128x1024 x1 shapeCasts_S1x128x1024_S128x1024 (ix2 a d) = _
  exact shapeCast_1ab_ab_apply x1 shapeCasts_S1x128x1024_S128x1024 a d

theorem scoreV_apply (c : Fin 1024) (a : Fin 128) :
    scoreV x0 x1 (ix2 c a) = AttnSpec.score (fun a d => x1 (ix3 (0 : Fin 1) a d)) (fun c d => x0 (ix3 (0 : Fin 1) c d)) c a := by
  unfold scoreV AttnSpec.score
  refine (scoreDot_apply (k0_pay2 (F := Ideal) x0) (qT x1) c a).trans ?_
  refine Finset.sum_congr rfl fun d _ => ?_
  rw [pay2_apply, qT_apply]

theorem lkV_apply (c : Fin 1024) (a : Fin 128) :
    lkV x0 x1 (ix2 c a) = AttnSpec.lk (fun a d => x1 (ix3 (0 : Fin 1) a d)) (fun c d => x0 (ix3 (0 : Fin 1) c d)) c a := by
  unfold lkV AttnSpec.lk
  rw [lkOf_apply, scoreV_apply]

theorem nrmV_apply (c : Fin 1024) (u : Fin 1) :
    nrmOf (lkV x0 x1) (ix2 c u)
      = AttnSpec.nrm (fun a d => x1 (ix3 (0 : Fin 1) a d)) (fun c d => x0 (ix3 (0 : Fin 1) c d)) c := by
  unfold AttnSpec.nrm
  rw [nrmOf_apply]
  refine congrArg (fun z => Ideal.sqrt z + Ideal.ofBits .f32 0x322BCC77#32) ?_
  refine Finset.sum_congr rfl fun a _ => ?_
  rw [lkV_apply]

theorem scV_apply (a : Fin 128) (c : Fin 1024) :
    scV x0 x1 (ix2 a c) = AttnSpec.sc (fun a d => x1 (ix3 (0 : Fin 1) a d)) (fun c d => x0 (ix3 (0 : Fin 1) c d)) a c := by
  unfold scV AttnSpec.sc
  rw [scOf_apply, lkV_apply, nrmV_apply]

theorem rmaxV_apply (a : Fin 128) :
    rmaxOf (scV x0 x1) (ix1 a)
      = AttnSpec.rmax (fun a d => x1 (ix3 (0 : Fin 1) a d)) (fun c d => x0 (ix3 (0 : Fin 1) c d)) a := by
  unfold AttnSpec.rmax
  rw [rmaxOf_apply]
  refine congrArg (fun f => max (Ideal.ofBits .f32 0xFF800000#32)
    ((Finset.univ : Finset (Fin 1024)).fold max (Ideal.ofBits .f32 0xFF800000#32) f)) ?_
  funext c
  exact scV_apply x0 x1 a c

theorem exV_apply (a : Fin 128) (c : Fin 1024) :
    exV x0 x1 (ix2 a c) = AttnSpec.ex (fun a d => x1 (ix3 (0 : Fin 1) a d)) (fun c d => x0 (ix3 (0 : Fin 1) c d)) a c := by
  unfold exV AttnSpec.ex
  rw [exOf_apply, scV_apply, rmaxV_apply]

/-- THE BODY'S ATTENTION WEIGHTS at (a, c) are the specification's. -/
theorem pay3_apply (a : Fin 128) (c : Fin 1024) :
    k0_pay3 (F := Ideal) x0 x1 (ix2 a c)
      = AttnSpec.attn (fun a d => x1 (ix3 (0 : Fin 1) a d)) (fun c d => x0 (ix3 (0 : Fin 1) c d)) a c := by
  rw [pay3_eq]
  unfold AttnSpec.attn AttnSpec.den
  rw [attnOf_apply, exV_apply]
  refine congrArg (fun z => Ideal.div _ z) ?_
  refine Finset.sum_congr rfl fun c' _ => ?_
  rw [exV_apply]

/-- The weights narrowed for the second product are the same extended reals. -/
theorem pay5_apply (a : Fin 128) (c : Fin 1024) :
    k0_pay5 (F := Ideal) x0 x1 (ix2 a c)
      = AttnSpec.attn (fun a d => x1 (ix3 (0 : Fin 1) a d)) (fun c d => x0 (ix3 (0 : Fin 1) c d)) a c := by
  show k0_pay3 (F := Ideal) x0 x1 (ix2 a c) = _
  exact pay3_apply x0 x1 a c

/-- THE BODY'S WEIGHTED CONTEXT at (0, a, d) is the specification's. -/
theorem pay1_apply (a : Fin 128) (d : Fin 1024) :
    k0_pay1 (F := Ideal) (k0_pay2 x0) (k0_pay5 x0 x1) (constant (F := Ideal) S128x1024 .f32 0x00000000#32) (ix3 (0 : Fin 1) a d)
      = AttnSpec.wctx (fun a d => x1 (ix3 (0 : Fin 1) a d)) (fun c d => x0 (ix3 (0 : Fin 1) c d)) a d := by
  unfold k0_pay1 AttnSpec.wctx
  refine (shapeCast_ab_1ab_apply _ shapeCasts_S128x1024_S1x128x1024 (0 : Fin 1) a d).trans ?_
  refine (ctxDot_apply (k0_pay5 (F := Ideal) x0 x1) (k0_pay2 (F := Ideal) x0) a d).trans ?_
  refine Finset.sum_congr rfl fun c _ => ?_
  rw [pay5_apply, pay2_apply]

end Spec

end Cert.KerPay

end
-- ==== Proof.KerBlocks.lean ====
/-
  From the kernel's blocks to its result arrays, at the ideal values.

  The grid has 128 points, one per batch element. At point t every window's block index is (t, 0, 0): the context
  window's block is `context[t]` as a [1, 1024, 1024] array, the query window's is `query[t]` as [1, 128, 1024], and
  each result window's block is rows `[t]` of its [128, 128, 1024] array (`idx_facts`, decided over the grid;
  `ctx_block`, `qry_block`: a block's entry (0, x, d) is the array's entry (t, x, d)).
  What the body stores in a result block is a payload of those two blocks; read at an index (0, a, x) it is the
  specification's per-batch function of the blocks, hence the whole-array function `attnArr` / `wctxArr` at (t, a, x)
  (`attn_of_blocks`, `wctx_of_blocks`). So what point t writes back is block t of the whole-array function
  (`flushed3_eq`, `flushed2_eq`); index (b, a, x) lies in the block of point b, so the blocks cover each array
  (`cover2`, `cover3`), and each result array ends holding the whole-array function of the arguments (`final2`,
  `final3`, `run`).
-/
import proofs.«109686_j89361089561147_1_alg».proof.Proof.Gen.KernelIdeal.Value
import proofs.«109686_j89361089561147_1_alg».proof.Proof.SpecArr
import proofs.«109686_j89361089561147_1_alg».proof.Proof.KerPay
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KerBlocks

open Cert.KernelIdeal Cert.KernelIdeal.Gen Cert.KernelIdeal.Value Cert.AttnSpec

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The context block at point t is batch element t of the context array. -/
theorem ctx_block (c : Dev nD) (t : Fin cfg0.N) (b : Fin 128) (hb : b.val = t.val) (x : Fin 1024) (d : Fin 1024) :
    (iblk m c 0 t : Vec Ideal S1x1024x1024 .f32) (ix3 0 x d)
      = (m ((c : Thread nD τ).loc main_arg1) : S128x1024x1024.Idx → EReal) (ix3 b x d) := by
  obtain ⟨e0, e1, e2, -⟩ := idx_facts t
  unfold iblk
  rw [View.read_apply]
  show V m c main_arg1 _ = m (c.tc.loc main_arg1) _
  unfold V
  congr 1
  funext a
  apply Fin.ext
  match a with
  | ⟨0, _⟩ => show win0_0.index t 0 * 1 + 1 * 0 = b.val; rw [e0, hb]; omega
  | ⟨1, _⟩ => show win0_0.index t 1 * 1024 + 1 * x.val = x.val; rw [e1]; omega
  | ⟨2, _⟩ => show win0_0.index t 2 * 1024 + 1 * d.val = d.val; rw [e2]; omega

/-- The query block at point t is batch element t of the query array. -/
theorem qry_block (c : Dev nD) (t : Fin cfg0.N) (b : Fin 128) (hb : b.val = t.val) (a : Fin 128) (d : Fin 1024) :
    (iblk m c 1 t : Vec Ideal S1x128x1024 .f32) (ix3 0 a d)
      = (m ((c : Thread nD τ).loc main_arg0) : S128x128x1024.Idx → EReal) (ix3 b a d) := by
  obtain ⟨-, -, -, e0, e1, e2, -⟩ := idx_facts t
  unfold iblk
  rw [View.read_apply]
  show V m c main_arg0 _ = m (c.tc.loc main_arg0) _
  unfold V
  congr 1
  funext i
  apply Fin.ext
  match i with
  | ⟨0, _⟩ => show win0_1.index t 0 * 1 + 1 * 0 = b.val; rw [e0, hb]; omega
  | ⟨1, _⟩ => show win0_1.index t 1 * 128 + 1 * a.val = a.val; rw [e1]; omega
  | ⟨2, _⟩ => show win0_1.index t 2 * 1024 + 1 * d.val = d.val; rw [e2]; omega

/-- The attention payload of two blocks that are batch element b of the arrays is the whole-array function at batch b. -/
theorem attn_of_blocks (x0 : Vec Ideal S1x1024x1024 .f32) (x1 : Vec Ideal S1x128x1024 .f32)
    (q : S128x128x1024.Idx → EReal) (ctx : S128x1024x1024.Idx → EReal) (b : Fin 128)
    (h0 : ∀ x d, x0 (ix3 0 x d) = ctx (ix3 b x d)) (h1 : ∀ a d, x1 (ix3 0 a d) = q (ix3 b a d)) (a : Fin 128) (x : Fin 1024) :
    k0_pay4 (F := Ideal) x0 x1 (ix3 0 a x) = attnArr q ctx (ix3 b a x) := by
  rw [attnArr_ix3]
  have e0 : (fun c d => ctx (ix3 b c d)) = (fun c d => x0 (ix3 0 c d)) := funext fun c => funext fun d => (h0 c d).symm
  have e1 : (fun a d => q (ix3 b a d)) = (fun a d => x1 (ix3 0 a d)) := funext fun a => funext fun d => (h1 a d).symm
  rw [e0, e1]
  refine Eq.trans ?_ (Cert.KerPay.pay3_apply x0 x1 a x)
  exact shapeCast_ab_1ab_apply (k0_pay3 (F := Ideal) x0 x1) _ 0 a x

/-- Likewise the weighted-context payload. -/
theorem wctx_of_blocks (x0 : Vec Ideal S1x1024x1024 .f32) (x1 : Vec Ideal S1x128x1024 .f32)
    (q : S128x128x1024.Idx → EReal) (ctx : S128x1024x1024.Idx → EReal) (b : Fin 128)
    (h0 : ∀ x d, x0 (ix3 0 x d) = ctx (ix3 b x d)) (h1 : ∀ a d, x1 (ix3 0 a d) = q (ix3 b a d)) (a : Fin 128) (d : Fin 1024) :
    k0_pay1 (F := Ideal) (k0_pay2 x0) (k0_pay5 x0 x1) (constant S128x1024 .f32 0x00000000#32) (ix3 0 a d)
      = wctxArr q ctx (ix3 b a d) := by
  rw [wctxArr_ix3]
  have e0 : (fun c d => ctx (ix3 b c d)) = (fun c d => x0 (ix3 0 c d)) := funext fun c => funext fun d => (h0 c d).symm
  have e1 : (fun a d => q (ix3 b a d)) = (fun a d => x1 (ix3 0 a d)) := funext fun a => funext fun d => (h1 a d).symm
  rw [e0, e1]
  exact Cert.KerPay.pay1_apply x0 x1 a d

theorem flushed3_eq (c : Dev nD) (t : Fin cfg0.N) :
    (dats m 0 c).flushed 3 t = ((cfg0.win 3).blk t).view.read (Elt Ideal)
      (attnArr (m ((c : Thread nD τ).loc main_arg0)) (m ((c : Thread nD τ).loc main_arg1))) := by
  rw [flushed3]
  unfold out0_3
  rw [View.canon_unit_zero hz]
  simp only [View.ld_unit_zero (S := S1x1024x1024) hz, View.ld_unit_zero (S := S1x128x1024) hz]
  funext j
  obtain ⟨-, -, -, -, -, -, -, -, -, e0, e1, e2⟩ := idx_facts t
  have ht : t.val < 128 := lt_of_lt_of_eq t.isLt N_0
  have hj0 : (j 0).val < 1 := (j 0).isLt
  have hj1 : (j 1).val < 128 := (j 1).isLt
  have hj2 : (j 2).val < 1024 := (j 2).isLt
  have hj : j = (ix3 (0 : Fin 1) (⟨(j 1).val, hj1⟩ : Fin 128) (⟨(j 2).val, hj2⟩ : Fin 1024) : S1x128x1024.Idx) := by
    funext a; apply Fin.ext
    match a with
    | ⟨0, _⟩ => show (j 0).val = 0; omega
    | ⟨1, _⟩ => rfl
    | ⟨2, _⟩ => rfl
  have hemb : ((cfg0.win 3).blk t).view.emb j
      = (ix3 (⟨t.val, ht⟩ : Fin 128) (⟨(j 1).val, hj1⟩ : Fin 128) (⟨(j 2).val, hj2⟩ : Fin 1024) : S128x128x1024.Idx) := by
    funext a; apply Fin.ext
    match a with
    | ⟨0, _⟩ => show win0_3.index t (0 : Fin 3) * 1 + 1 * (j 0).val = t.val; rw [e0]; omega
    | ⟨1, _⟩ => show win0_3.index t (1 : Fin 3) * 128 + 1 * (j 1).val = (j 1).val; rw [e1]; omega
    | ⟨2, _⟩ => show win0_3.index t (2 : Fin 3) * 1024 + 1 * (j 2).val = (j 2).val; rw [e2]; omega
  show k0_pay4 (F := Ideal) (iblk m c 0 t) (iblk m c 1 t) j
    = attnArr (m ((c : Thread nD τ).loc main_arg0)) (m ((c : Thread nD τ).loc main_arg1)) (((cfg0.win 3).blk t).view.emb j)
  refine (congrArg (k0_pay4 (F := Ideal) (iblk m c 0 t) (iblk m c 1 t)) hj).trans ?_
  refine Eq.trans ?_ (congrArg (attnArr (m ((c : Thread nD τ).loc main_arg0)) (m ((c : Thread nD τ).loc main_arg1))) hemb).symm
  exact attn_of_blocks (iblk m c 0 t) (iblk m c 1 t) (m ((c : Thread nD τ).loc main_arg0)) (m ((c : Thread nD τ).loc main_arg1))
    ⟨t.val, ht⟩ (fun x d => ctx_block m c t ⟨t.val, ht⟩ rfl x d) (fun a d => qry_block m c t ⟨t.val, ht⟩ rfl a d) ⟨(j 1).val, hj1⟩ ⟨(j 2).val, hj2⟩

theorem flushed2_eq (c : Dev nD) (t : Fin cfg0.N) :
    (dats m 0 c).flushed 2 t = ((cfg0.win 2).blk t).view.read (Elt Ideal)
      (wctxArr (m ((c : Thread nD τ).loc main_arg0)) (m ((c : Thread nD τ).loc main_arg1))) := by
  rw [flushed2]
  unfold out0_2
  rw [View.canon_unit_zero hz]
  simp only [View.ld_unit_zero (S := S1x1024x1024) hz, View.ld_unit_zero (S := S1x128x1024) hz]
  funext j
  obtain ⟨-, -, -, -, -, -, e0, e1, e2, -⟩ := idx_facts t
  have ht : t.val < 128 := lt_of_lt_of_eq t.isLt N_0
  have hj0 : (j 0).val < 1 := (j 0).isLt
  have hj1 : (j 1).val < 128 := (j 1).isLt
  have hj2 : (j 2).val < 1024 := (j 2).isLt
  have hj : j = (ix3 (0 : Fin 1) (⟨(j 1).val, hj1⟩ : Fin 128) (⟨(j 2).val, hj2⟩ : Fin 1024) : S1x128x1024.Idx) := by
    funext a; apply Fin.ext
    match a with
    | ⟨0, _⟩ => show (j 0).val = 0; omega
    | ⟨1, _⟩ => rfl
    | ⟨2, _⟩ => rfl
  have hemb : ((cfg0.win 2).blk t).view.emb j
      = (ix3 (⟨t.val, ht⟩ : Fin 128) (⟨(j 1).val, hj1⟩ : Fin 128) (⟨(j 2).val, hj2⟩ : Fin 1024) : S128x128x1024.Idx) := by
    funext a; apply Fin.ext
    match a with
    | ⟨0, _⟩ => show win0_2.index t (0 : Fin 3) * 1 + 1 * (j 0).val = t.val; rw [e0]; omega
    | ⟨1, _⟩ => show win0_2.index t (1 : Fin 3) * 128 + 1 * (j 1).val = (j 1).val; rw [e1]; omega
    | ⟨2, _⟩ => show win0_2.index t (2 : Fin 3) * 1024 + 1 * (j 2).val = (j 2).val; rw [e2]; omega
  show k0_pay1 (F := Ideal) (k0_pay2 (iblk m c 0 t)) (k0_pay5 (iblk m c 0 t) (iblk m c 1 t)) (constant S128x1024 .f32 0x00000000#32) j
    = wctxArr (m ((c : Thread nD τ).loc main_arg0)) (m ((c : Thread nD τ).loc main_arg1)) (((cfg0.win 2).blk t).view.emb j)
  refine (congrArg (k0_pay1 (F := Ideal) (k0_pay2 (iblk m c 0 t)) (k0_pay5 (iblk m c 0 t) (iblk m c 1 t)) (constant S128x1024 .f32 0x00000000#32)) hj).trans ?_
  refine Eq.trans ?_ (congrArg (wctxArr (m ((c : Thread nD τ).loc main_arg0)) (m ((c : Thread nD τ).loc main_arg1))) hemb).symm
  exact wctx_of_blocks (iblk m c 0 t) (iblk m c 1 t) (m ((c : Thread nD τ).loc main_arg0)) (m ((c : Thread nD τ).loc main_arg1))
    ⟨t.val, ht⟩ (fun x d => ctx_block m c t ⟨t.val, ht⟩ rfl x d) (fun a d => qry_block m c t ⟨t.val, ht⟩ rfl a d) ⟨(j 1).val, hj1⟩ ⟨(j 2).val, hj2⟩

/-- An index of a result array is in point t's block iff each coordinate is in the block's range on its axis. -/
theorem mem_blk2 (t : Fin cfg0.N) (i : S128x128x1024.Idx) :
    i ∈ ((cfg0.win 2).blk t).view.set ↔ ∀ a : Fin 3, win0_2.index t a * S1x128x1024.size a ≤ (i a).val ∧ (i a).val < win0_2.index t a * S1x128x1024.size a + S1x128x1024.size a := by
  show i ∈ ((View.whole main_v0_0).slice (win0_2.rect t)).set ↔ _
  rw [View.set_slice_whole, Rect.mem_set_unit]
  exact Iff.rfl

theorem mem_blk3 (t : Fin cfg0.N) (i : S128x128x1024.Idx) :
    i ∈ ((cfg0.win 3).blk t).view.set ↔ ∀ a : Fin 3, win0_3.index t a * S1x128x1024.size a ≤ (i a).val ∧ (i a).val < win0_3.index t a * S1x128x1024.size a + S1x128x1024.size a := by
  show i ∈ ((View.whole main_v0_1).slice (win0_3.rect t)).set ↔ _
  rw [View.set_slice_whole, Rect.mem_set_unit]
  exact Iff.rfl

/-- Every index (b, a, x) of a result array lies in the block of grid point b. -/
theorem cover2 (i : S128x128x1024.Idx) : ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 1024 := (i 2).isLt
  refine ⟨⟨(i 0).val, lt_of_lt_of_eq hi0 N_0.symm⟩, flush0_2 _, ?_⟩
  rw [mem_blk2]
  obtain ⟨-, -, -, -, -, -, e0, e1, e2, -⟩ := idx_facts ⟨(i 0).val, lt_of_lt_of_eq hi0 N_0.symm⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 1024 ≤ (i 2).val ∧ (i 2).val < win0_2.index _ (2 : Fin 3) * 1024 + 1024; rw [e2]; omega

theorem cover3 (i : S128x128x1024.Idx) : ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 1024 := (i 2).isLt
  refine ⟨⟨(i 0).val, lt_of_lt_of_eq hi0 N_0.symm⟩, flush0_3 _, ?_⟩
  rw [mem_blk3]
  obtain ⟨-, -, -, -, -, -, -, -, -, e0, e1, e2⟩ := idx_facts ⟨(i 0).val, lt_of_lt_of_eq hi0 N_0.symm⟩
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 1024 ≤ (i 2).val ∧ (i 2).val < win0_3.index _ (2 : Fin 3) * 1024 + 1024; rw [e2]; omega

/-- The weighted-context array after the run. -/
theorem final2 (c : Dev nD) : (dats m 0 c).arrAt 2 cfg0.N
    = wctxArr (m ((c : Thread nD τ).loc main_arg0)) (m ((c : Thread nD τ).loc main_arg1)) :=
  (dats m 0 c).arrAt_eq_of_cover 2 _ (fun t _ => flushed2_eq m c t) cover2

/-- The attention array after the run. -/
theorem final3 (c : Dev nD) : (dats m 0 c).arrAt 3 cfg0.N
    = attnArr (m ((c : Thread nD τ).loc main_arg0)) (m ((c : Thread nD τ).loc main_arg1)) :=
  (dats m 0 c).arrAt_eq_of_cover 3 _ (fun t _ => flushed3_eq m c t) cover3

/-- The kernel's run, read: both result arrays at the specification's functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v0_0) = wctxArr (m ((c : Thread nD τ).loc main_arg0)) (m ((c : Thread nD τ).loc main_arg1))
      ∧ r.2.mem ((c : Thread nD τ).loc main_v0_1) = attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KerBlocks
end
-- ==== Proof.lean ====
/-
  The certificate's five claims.

  Both programs compute, for every batch element b with query matrix Q = query[b] and context matrix C = context[b]:
  the scores C·Qᵀ, their leaky rectifier, each context row divided by its Euclidean norm over the query axis plus a
  small constant, the transpose scaled by nine, a softmax over the context axis (the attention weights, a result),
  and the weights times C (the weighted context, a result); the query array is returned as it came. The kernel does
  this one batch element per grid point on blocks of the arrays, narrowing to bf16 before each matrix product (the
  identity at the ideal values); the reference does it on the whole arrays with batched products. At the ideal
  values a matrix product is a finite sum of products and a row reduction a finite sum or a fold of `max`, so the two
  sides are one function of the arguments, index by index: `AttnSpec.attnArr` and `AttnSpec.wctxArr`. No algebraic law
  beyond reading each operation at an index is used, so the finiteness precondition is never opened.

  The kernel's two frames are the generated ones; the reference's frame is its run with the results dropped; the
  ideal pass rewrote nothing, so `preserves` is `True`; `algebraic` puts the two runs side by side at the same
  two functions of arguments that agree.
-/
import proofs.«109686_j89361089561147_1_alg».proof.Defs
import proofs.«109686_j89361089561147_1_alg».proof.Proof.Gen.Kernel.Frame
import proofs.«109686_j89361089561147_1_alg».proof.Proof.Gen.KernelIdeal.Frame
import proofs.«109686_j89361089561147_1_alg».proof.Proof.Gen.KernelIdeal.Value
import proofs.«109686_j89361089561147_1_alg».proof.Proof.Gen.ReferenceIdeal
import proofs.«109686_j89361089561147_1_alg».proof.Proof.Gen.Pre_finite_inputs
import proofs.«109686_j89361089561147_1_alg».proof.Proof.RefRun
import proofs.«109686_j89361089561147_1_alg».proof.Proof.SpecArr
import proofs.«109686_j89361089561147_1_alg».proof.Proof.RefRead
import proofs.«109686_j89361089561147_1_alg».proof.Proof.KerBlocks
import Idealize.ShloMosaic.Adequacy
import Idealize.ShloMosaic.Init

noncomputable section

open Idealize.ShloMosaic Idealize.ShloMosaic.TcCoe Idealize.SL.Sem Idealize.ShloMosaic.ValueIdx

namespace Cert.Proof

open Cert.AttnSpec

/-- The reference's attention term is the specification's whole-array function: index by index. -/
theorem rAttn_eq (q : FVec Ideal Cert.ReferenceIdeal.S128x128x1024 .f32) (ctx : FVec Ideal Cert.ReferenceIdeal.S128x1024x1024 .f32) :
    Cert.RefTerm.rAttn (F := Ideal) q ctx = attnArr q ctx := by
  funext i
  obtain ⟨b, a, x, rfl⟩ : ∃ (b a : Fin 128) (x : Fin 1024), i = ix3 b a x := ⟨i 0, i 1, i 2, eq_ix3 i⟩
  rw [attnArr_ix3]
  exact Cert.RefRead.rAttn_apply q ctx b a x

/-- Likewise its weighted-context term. -/
theorem rWctx_eq (q : FVec Ideal Cert.ReferenceIdeal.S128x128x1024 .f32) (ctx : FVec Ideal Cert.ReferenceIdeal.S128x1024x1024 .f32) :
    Cert.RefTerm.rWctx (F := Ideal) q ctx = wctxArr q ctx := by
  funext i
  obtain ⟨b, a, x, rfl⟩ : ∃ (b a : Fin 128) (x : Fin 1024), i = ix3 b a x := ⟨i 0, i 1, i 2, eq_ix3 i⟩
  rw [wctxArr_ix3]
  exact Cert.RefRead.rWctx_apply q ctx b a x

theorem frame_ref : Cert.frame_ReferenceIdeal := fun m ρ _ =>
  (θ_run Cert.ReferenceIdeal.defs _ _).mono (fun _ h c => (h c).2.2) (Cert.RefRun.run (F := Ideal) m ρ)

theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => wctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ h c => ⟨(h c).2.2.1, (h c).1, (h c).2.1, (h c).2.2.1, (h c).2.2.2⟩) (Cert.KerBlocks.run m ρ)
  · refine (θ_run Cert.ReferenceIdeal.defs _ _).mono (fun _ h c => ?_) (Cert.RefRun.run (F := Ideal) m' ρ')
    obtain ⟨h23, h24, h0, h1⟩ := h c
    refine ⟨h0.trans (hagree c).1, ?_, ?_, h0, h1⟩
    · rw [h24, rWctx_eq, (hagree c).1, (hagree c).2]
    · rw [h23, rAttn_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
